-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x32 : S_.BroadcastsInDim S262144x32 (![] : Fin 0 → Fin S262144x32.rank)
  reducesTo_S262144x32_S_d0_1 : S262144x32.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S256x32 .f32) (main_arg5 : FVec F S32 .f32) (main_arg6 : FVec F S256x32 .f32) (main_arg7 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S262144x32 .f32) (main_arg2 : FVec F S128x256 .f32) (main_arg3 : FVec F S256 .f32) (main_arg4 : FVec F S256x32 .f32) (main_arg5 : FVec F S32 .f32) (main_arg6 : FVec F S256x32 .f32) (main_arg7 : FVec F S32 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x32 .f32 := Host.absf main_arg1
  let main_cst_0 : FVec F S_ .f32 := constant S_ .f32 0x7F800000#32
  let main_v5 : FVec F S262144x32 .f32 := broadcastInDim S262144x32 ![] bcast_S_S262144x32 main_cst_0
  let main_v6 : IVec S262144x32 1 := cmpf .olt main_v4 main_v5
  let main_c_1 : IVec S_ 1 := constantI S_ 1 1#1
  let main_v7 : IVec S_ 1 := (fun x v => Host.reduce IntOp.andi x v reducesTo_S262144x32_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S262144x1 : Shape := ⟨2, ![262144, 1]⟩
abbrev S4096x128 : Shape := ⟨2, ![4096, 128]⟩
abbrev S4096x32 : Shape := ⟨2, ![4096, 32]⟩
abbrev S4096x1 : Shape := ⟨2, ![4096, 1]⟩
abbrev S4096x256 : Shape := ⟨2, ![4096, 256]⟩
abbrev S1x256 : Shape := ⟨2, ![1, 256]⟩
abbrev S1x32 : Shape := ⟨2, ![1, 32]⟩
abbrev S4096 : Shape := ⟨1, ![4096]⟩
abbrev S262144 : Shape := ⟨1, ![262144]⟩

abbrev nBuf : Space → Nat
  | .hbm => 14
  | .vmem => 18
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S128x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S256x32, .f32⟩
  | .hbm, ⟨7, _⟩ => ⟨S32, .f32⟩
  | .hbm, ⟨8, _⟩ => ⟨S262144x32, .f32⟩
  | .hbm, ⟨9, _⟩ => ⟨S262144x32, .f32⟩
  | .hbm, ⟨10, _⟩ => ⟨S262144x1, .f32⟩
  | .hbm, ⟨11, _⟩ => ⟨S262144x1, .f32⟩
  | .hbm, ⟨12, _⟩ => ⟨S262144, .f32⟩
  | .hbm, ⟨13, _⟩ => ⟨S262144, .f32⟩
  | .local _ .vmem, ⟨0, _⟩ => ⟨S4096x128, .f32⟩
  | .local _ .vmem, ⟨1, _⟩ => ⟨S4096x128, .f32⟩
  | .local _ .vmem, ⟨2, _⟩ => ⟨S4096x32, .f32⟩
  | .local _ .vmem, ⟨3, _⟩ => ⟨S4096x32, .f32⟩
  | .local _ .vmem, ⟨4, _⟩ => ⟨S128x256, .f32⟩
  | .local _ .vmem, ⟨5, _⟩ => ⟨S256, .f32⟩
  | .local _ .vmem, ⟨6, _⟩ => ⟨S256x32, .f32⟩
  | .local _ .vmem, ⟨7, _⟩ => ⟨S32, .f32⟩
  | .local _ .vmem, ⟨8, _⟩ => ⟨S256x32, .f32⟩
  | .local _ .vmem, ⟨9, _⟩ => ⟨S32, .f32⟩
  | .local _ .vmem, ⟨10, _⟩ => ⟨S4096x32, .f32⟩
  | .local _ .vmem, ⟨11, _⟩ => ⟨S4096x32, .f32⟩
  | .local _ .vmem, ⟨12, _⟩ => ⟨S4096x32, .f32⟩
  | .local _ .vmem, ⟨13, _⟩ => ⟨S4096x32, .f32⟩
  | .local _ .vmem, ⟨14, _⟩ => ⟨S4096x1, .f32⟩
  | .local _ .vmem, ⟨15, _⟩ => ⟨S4096x1, .f32⟩
  | .local _ .vmem, ⟨16, _⟩ => ⟨S4096x1, .f32⟩
  | .local _ .vmem, ⟨17, _⟩ => ⟨S4096x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S4096x32_S4096x32_0_0 : ∀ a, (![0, 0] : Fin 2 → Nat) a + S4096x32.size a ≤ S4096x32.size a
  h_S4096x32 : 0 < S4096x32.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  reduces_S4096x32_S4096 : S4096x32.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S262144x1_S262144 : S262144x1.ShapeCasts S262144
  dot_S4096x128_S128x256_S4096x256_1_0_0_1_n_n_wf : DotDims.WF S4096x128 S128x256 S4096x256 [1] [0] [0] [1] [] []
  dot_S4096x256_S256x32_S4096x32_1_0_0_1_n_n_wf : DotDims.WF S4096x256 S256x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S262144x32.size a
  hwx0_1 : ∀ i : grid0.Coords, EltTy.bits .f32 = 32 ∨ (Rect.block (s := S262144x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x32.size a ≤ S262144x32.size a
  hwx0_8 : ∀ i : grid0.Coords, EltTy.bits .f32 = 32 ∨ (Rect.block (s := S262144x32) S4096x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x32.size a ≤ S262144x32.size a
  hwx0_9 : ∀ i : grid0.Coords, EltTy.bits .f32 = 32 ∨ (Rect.block (s := S262144x32) S4096x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S262144x1.size a
  hwx0_10 : ∀ i : grid0.Coords, EltTy.bits .f32 = 32 ∨ (Rect.block (s := S262144x1) S4096x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S262144x1.size a
  hwx0_11 : ∀ i : grid0.Coords, EltTy.bits .f32 = 32 ∨ (Rect.block (s := S262144x1) S4096x1.size (cc0_transform_11 i) (hinb0_11 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S4096x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S4096x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S4096x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x32 : Shape := ⟨2, ![262144, 32]⟩
abbrev S128x256 : Shape := ⟨2, ![128, 256]⟩
abbrev S256 : Shape := ⟨1, ![256]⟩
abbrev S256x32 : Shape := ⟨2, ![256, 32]⟩
abbrev S32 : Shape := ⟨1, ![32]⟩
abbrev S262144x256 : Shape := ⟨2, ![262144, 256]⟩
abbrev S1x256 : Shape := ⟨2, ![1, 256]⟩
abbrev S_ : Shape := ⟨0, ![]⟩
abbrev S1x32 : Shape := ⟨2, ![1, 32]⟩
abbrev S262144 : Shape := ⟨1, ![262144]⟩

abbrev nBuf : Space → Nat
  | .hbm => 70
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x32, .f32⟩
  | .hbm, ⟨2, _⟩ => ⟨S128x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S256x32, .f32⟩
  | .hbm, ⟨7, _⟩ => ⟨S32, .f32⟩
  | .hbm, ⟨8, _⟩ => ⟨S262144x256, .f32⟩
  | .hbm, ⟨9, _⟩ => ⟨S1x256, .f32⟩
  | .hbm, ⟨10, _⟩ => ⟨S262144x256, .f32⟩
  | .hbm, ⟨11, _⟩ => ⟨S262144x256, .f32⟩
  | .hbm, ⟨12, _⟩ => ⟨S_, .f32⟩
  | .hbm, ⟨13, _⟩ => ⟨S262144x256, .f32⟩
  | .hbm, ⟨14, _⟩ => ⟨S262144x256, .f32⟩
  | .hbm, ⟨15, _⟩ => ⟨S262144x32, .f32⟩
  | .hbm, ⟨16, _⟩ => ⟨S1x32, .f32⟩
  | .hbm, ⟨17, _⟩ => ⟨S262144x32, .f32⟩
  | .hbm, ⟨18, _⟩ => ⟨S262144x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x32, .f32⟩
  | .hbm, ⟨23, _⟩ => ⟨S262144x32, .f32⟩
  | .hbm, ⟨24, _⟩ => ⟨S_, .f32⟩
  | .hbm, ⟨25, _⟩ => ⟨S262144x32, .f32⟩
  | .hbm, ⟨26, _⟩ => ⟨S262144x32, .f32⟩
  | .hbm, ⟨27, _⟩ => ⟨S262144x32, .f32⟩
  | .hbm, ⟨28, _⟩ => ⟨S1x32, .f32⟩
  | .hbm, ⟨29, _⟩ => ⟨S262144x32, .f32⟩
  | .hbm, ⟨30, _⟩ => ⟨S262144x32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S262144x32, .f32⟩
  | .hbm, ⟨35, _⟩ => ⟨S262144x32, .f32⟩
  | .hbm, ⟨36, _⟩ => ⟨S_, .f32⟩
  | .hbm, ⟨37, _⟩ => ⟨S262144x32, .f32⟩
  | .hbm, ⟨38, _⟩ => ⟨S262144x32, .f32⟩
  | .hbm, ⟨39, _⟩ => ⟨S262144x32, .f32⟩
  | .hbm, ⟨40, _⟩ => ⟨S262144x32, .f32⟩
  | .hbm, ⟨41, _⟩ => ⟨S262144x32, .f32⟩
  | .hbm, ⟨42, _⟩ => ⟨S262144x32, .f32⟩
  | .hbm, ⟨43, _⟩ => ⟨S262144x32, .f32⟩
  | .hbm, ⟨44, _⟩ => ⟨S_, .f32⟩
  | .hbm, ⟨45, _⟩ => ⟨S262144x32, .f32⟩
  | .hbm, ⟨46, _⟩ => ⟨S262144x32, .f32⟩
  | .hbm, ⟨47, _⟩ => ⟨S262144x32, .f32⟩
  | .hbm, ⟨48, _⟩ => ⟨S262144x32, .f32⟩
  | .hbm, ⟨49, _⟩ => ⟨S262144x32, .f32⟩
  | .hbm, ⟨50, _⟩ => ⟨S262144x32, .f32⟩
  | .hbm, ⟨51, _⟩ => ⟨S_, .f32⟩
  | .hbm, ⟨52, _⟩ => ⟨S262144, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S262144x32, .f32⟩
  | .hbm, ⟨60, _⟩ => ⟨S_, .f32⟩
  | .hbm, ⟨61, _⟩ => ⟨S262144x32, .f32⟩
  | .hbm, ⟨62, _⟩ => ⟨S262144x32, .f32⟩
  | .hbm, ⟨63, _⟩ => ⟨S_, .f32⟩
  | .hbm, ⟨64, _⟩ => ⟨S262144x32, .f32⟩
  | .hbm, ⟨65, _⟩ => ⟨S262144x32, .f32⟩
  | .hbm, ⟨66, _⟩ => ⟨S262144x32, .f32⟩
  | .hbm, ⟨67, _⟩ => ⟨S_, .f32⟩
  | .hbm, ⟨68, _⟩ => ⟨S262144, .f32⟩
  | .hbm, ⟨69, _⟩ => ⟨S262144, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  reducesTo_S262144x32_S262144_d1 : S262144x32.ReducesTo [1] S262144
  h_S_ : 0 < S_.numel
  bcast_S_S262144 : S_.BroadcastsInDim S262144 (![] : Fin 0 → Fin S262144.rank)
  dot_S262144x128_S128x256_S262144x256_1_0_0_1_n_n_wf : DotDims.WF S262144x128 S128x256 S262144x256 [1] [0] [0] [1] [] []
  dot_S262144x256_S256x32_S262144x32_1_0_0_1_n_n_wf : DotDims.WF S262144x256 S256x32 S262144x32 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf

class Facts : Prop extends Facts₀ where

variable [Facts]
-- ==== Proof.Policy.lean ====
/-
  One row of a tanh-squashed Gaussian policy, over the extended reals.

  From an observation row `x` (128 entries) a hidden row is the positive part of an affine map; two affine heads
  of the hidden row, each clipped to an interval, give the mean and the log-variance of a diagonal Gaussian; the
  sample is the mean plus the square root of the variance times a noise row `ε` (32 entries), and the action is its
  hyperbolic tangent. The Gaussian's log-density at the sample is minus one half of the sum, over the 32 coordinates, of the
  squared deviation over the variance plus the log-variance, less the constant 16·log 2π (a binary32 word here);
  the squashed log-density subtracts the sum of log (1 − action² + ε₀).
  Every literal is kept as the binary32 word the programs carry: the same word on both sides is never evaluated.
  The array forms read a row of the observation and noise matrices through their two coordinates.
-/
import Idealize.ShloMosaic.PureOps.Ideal
import Idealize.ShloMosaic.Lib.ValueIdx

noncomputable section

namespace Cert.Policy

open Idealize.ShloMosaic Idealize.ShloMosaic.ValueIdx

/-- A binary32 word read as an extended real. -/
abbrev lit (w : BitVec 32) : EReal := Ideal.ofBits .f32 w

/-- The weights and biases of the three affine maps. -/
structure Params where
  wbb : Fin 128 → Fin 256 → EReal
  bbb : Fin 256 → EReal
  wmu : Fin 256 → Fin 32 → EReal
  bmu : Fin 32 → EReal
  wsg : Fin 256 → Fin 32 → EReal
  bsg : Fin 32 → EReal

/-- The parameters read off their arrays, coordinate by coordinate. -/
def paramsOf (W1 : (⟨2, ![128, 256]⟩ : Shape).Idx → EReal) (b1 : (⟨1, ![256]⟩ : Shape).Idx → EReal)
    (W2 : (⟨2, ![256, 32]⟩ : Shape).Idx → EReal) (b2 : (⟨1, ![32]⟩ : Shape).Idx → EReal)
    (W3 : (⟨2, ![256, 32]⟩ : Shape).Idx → EReal) (b3 : (⟨1, ![32]⟩ : Shape).Idx → EReal) : Params where
  wbb i k := W1 (ix2 i k)
  bbb k := b1 (ix1 k)
  wmu k j := W2 (ix2 k j)
  bmu j := b2 (ix1 j)
  wsg k j := W3 (ix2 k j)
  bsg j := b3 (ix1 j)

/-- Row `r` of a matrix as a function of the column. -/
def rowOf {n d : ℕ} (A : (⟨2, ![n, d]⟩ : Shape).Idx → EReal) (r : Fin n) : Fin d → EReal := fun a => A (ix2 r a)

variable (θ : Params) (x : Fin 128 → EReal) (ε : Fin 32 → EReal)

/-- Hidden unit `k`: the positive part of the affine map of the observation row. -/
def hiddenUnit (k : Fin 256) : EReal :=
  max ((∑ i : Fin 128, x i * θ.wbb i k) + θ.bbb k) (lit 0x00000000#32)

/-- The mean's coordinate `j`: an affine head of the hidden row, clipped to [-7, 7]. -/
def meanAt (j : Fin 32) : EReal :=
  min (lit 0x40E00000#32) (max (lit 0xC0E00000#32) ((∑ k : Fin 256, hiddenUnit θ x k * θ.wmu k j) + θ.bmu j))

/-- The log-variance's coordinate `j`: the other affine head, clipped to [-2, 5]. -/
def logvarAt (j : Fin 32) : EReal :=
  min (lit 0x40A00000#32) (max (lit 0xC0000000#32) ((∑ k : Fin 256, hiddenUnit θ x k * θ.wsg k j) + θ.bsg j))

/-- The variance. -/
def varAt (j : Fin 32) : EReal := Ideal.exp (logvarAt θ x j)

/-- The reparameterized sample: mean plus standard deviation times noise. -/
def sampleAt (j : Fin 32) : EReal := meanAt θ x j + Ideal.sqrt (varAt θ x j) * ε j

/-- The action: the sample squashed by tanh (times the unit bound). -/
def actionAt (j : Fin 32) : EReal := lit 0x3F800000#32 * Ideal.tanh (sampleAt θ x ε j)

/-- The Gaussian's log-density at the sample. -/
def gaussLogp : EReal :=
  lit 0xBF000000#32
      * (∑ j : Fin 32, (Ideal.div ((sampleAt θ x ε j - meanAt θ x j) * (sampleAt θ x ε j - meanAt θ x j)) (varAt θ x j) + logvarAt θ x j))
    - lit 0x41EB3F8E#32

/-- The squashed action's log-density: the change of variables of tanh, with its guard inside the logarithm. -/
def squashedLogp : EReal :=
  gaussLogp θ x ε - ∑ j : Fin 32, Ideal.log (lit 0x3F800000#32 - actionAt θ x ε j * actionAt θ x ε j + lit 0x358637BD#32)

/-! ## The four results as whole arrays over the 262144 rows -/

/-- The actions, row by row. -/
def actionArr (X : (⟨2, ![262144, 128]⟩ : Shape).Idx → EReal) (E : (⟨2, ![262144, 32]⟩ : Shape).Idx → EReal) :
    (⟨2, ![262144, 32]⟩ : Shape).Idx → EReal :=
  fun i => actionAt θ (rowOf X (i 0)) (rowOf E (i 0)) (i 1)

/-- The samples, row by row. -/
def sampleArr (X : (⟨2, ![262144, 128]⟩ : Shape).Idx → EReal) (E : (⟨2, ![262144, 32]⟩ : Shape).Idx → EReal) :
    (⟨2, ![262144, 32]⟩ : Shape).Idx → EReal :=
  fun i => sampleAt θ (rowOf X (i 0)) (rowOf E (i 0)) (i 1)

/-- The squashed log-densities, one per row. -/
def squashedLogpArr (X : (⟨2, ![262144, 128]⟩ : Shape).Idx → EReal) (E : (⟨2, ![262144, 32]⟩ : Shape).Idx → EReal) :
    (⟨1, ![262144]⟩ : Shape).Idx → EReal :=
  fun i => squashedLogp θ (rowOf X (i 0)) (rowOf E (i 0))

/-- The Gaussian log-densities, one per row. -/
def gaussLogpArr (X : (⟨2, ![262144, 128]⟩ : Shape).Idx → EReal) (E : (⟨2, ![262144, 32]⟩ : Shape).Idx → EReal) :
    (⟨1, ![262144]⟩ : Shape).Idx → EReal :=
  fun i => gaussLogp θ (rowOf X (i 0)) (rowOf E (i 0))

/-- The same two as columns, the form a kernel that keeps the reduced axis leaves them in. -/
def squashedLogpCol (X : (⟨2, ![262144, 128]⟩ : Shape).Idx → EReal) (E : (⟨2, ![262144, 32]⟩ : Shape).Idx → EReal) :
    (⟨2, ![262144, 1]⟩ : Shape).Idx → EReal :=
  fun i => squashedLogp θ (rowOf X (i 0)) (rowOf E (i 0))

def gaussLogpCol (X : (⟨2, ![262144, 128]⟩ : Shape).Idx → EReal) (E : (⟨2, ![262144, 32]⟩ : Shape).Idx → EReal) :
    (⟨2, ![262144, 1]⟩ : Shape).Idx → EReal :=
  fun i => gaussLogp θ (rowOf X (i 0)) (rowOf E (i 0))

end Cert.Policy

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KernelRow.lean ====
/-
  The kernel's body read at a row. A block of 4096 rows goes through the body row by row: the two matrix products are
  sums over the shared coordinate, a bias vector laid out as a row and repeated down the block is its entry at the
  column, a sum along the 32 columns kept as a one-column block is the row's total. So every value the body makes, at
  row p (and column j), is the policy's quantity of row p of the observation and noise blocks, with the parameters read
  off the weight blocks.
-/
import proofs.«164631_j83099027243561_1_alg».proof.Proof.Gen.KernelIdeal.Skeleton
import proofs.«164631_j83099027243561_1_alg».proof.Proof.Policy
import proofs.«164631_j83099027243561_1_alg».proof.Proof.LibLayout
import Idealize.ShloMosaic.Lib.ValueIdx
import Idealize.ShloMosaic.Lib.ValueLayout
import Idealize.ShloMosaic.PureOps.Ideal.Laws

noncomputable section

namespace Cert.KernelRow

open Idealize.ShloMosaic Idealize.ShloMosaic.ValueIdx Cert.KernelIdeal Cert.KernelIdeal.Gen Cert.Policy

theorem lhs_a_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_a_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_a_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_a_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The first product of a block: entry (p, k) is the sum over the 128 observation coordinates. -/
theorem mm_obs (A : FVec Ideal S4096x128 .f32) (B : FVec Ideal S128x256 .f32) (p : Fin 4096) (k : Fin 256) :
    matmul dot_S4096x128_S128x256_S4096x256_1_0_0_1_n_n none A B (constant S4096x256 .f32 0x00000000#32) (ix2 p k)
      = ∑ i : Fin 128, A (ix2 p i) * B (ix2 i k) := by
  refine (Ideal.matmul_constant_zero_apply dot_S4096x128_S128x256_S4096x256_1_0_0_1_n_n none A B (ix2 p k)).trans ?_
  rw [← Equiv.sum_comp (contrEquiv1 dot_S4096x128_S128x256_S4096x256_1_0_0_1_n_n 128 rfl rfl).symm]
  refine Finset.sum_congr rfl fun i _ => ?_
  have hk := contrEquiv1_symm_val dot_S4096x128_S128x256_S4096x256_1_0_0_1_n_n 128 rfl rfl i
  have el : dot_S4096x128_S128x256_S4096x256_1_0_0_1_n_n.lhsIdx (ix2 p k) ((contrEquiv1 dot_S4096x128_S128x256_S4096x256_1_0_0_1_n_n 128 rfl rfl).symm i) = ix2 p i := funext fun a => Fin.ext (by
    match a with
    | ⟨0, _⟩ => exact lhs_a_0 _ _
    | ⟨1, _⟩ => exact (lhs_a_1 _ _).trans hk)
  have er : dot_S4096x128_S128x256_S4096x256_1_0_0_1_n_n.rhsIdx (ix2 p k) ((contrEquiv1 dot_S4096x128_S128x256_S4096x256_1_0_0_1_n_n 128 rfl rfl).symm i) = ix2 i k := funext fun a => Fin.ext (by
    match a with
    | ⟨0, _⟩ => exact (rhs_a_0 _ _).trans hk
    | ⟨1, _⟩ => exact rhs_a_1 _ _)
  rw [el, er]

theorem lhs_b_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem lhs_b_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem rhs_b_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem rhs_b_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

/-- A head's product of a block: entry (p, k) is the sum over the 256 hidden units. -/
theorem mm_head (A : FVec Ideal S4096x256 .f32) (B : FVec Ideal S256x32 .f32) (p : Fin 4096) (k : Fin 32) :
    matmul dot_S4096x256_S256x32_S4096x32_1_0_0_1_n_n none A B (constant S4096x32 .f32 0x00000000#32) (ix2 p k)
      = ∑ i : Fin 256, A (ix2 p i) * B (ix2 i k) := by
  refine (Ideal.matmul_constant_zero_apply dot_S4096x256_S256x32_S4096x32_1_0_0_1_n_n none A B (ix2 p k)).trans ?_
  rw [← Equiv.sum_comp (contrEquiv1 dot_S4096x256_S256x32_S4096x32_1_0_0_1_n_n 256 rfl rfl).symm]
  refine Finset.sum_congr rfl fun i _ => ?_
  have hk := contrEquiv1_symm_val dot_S4096x256_S256x32_S4096x32_1_0_0_1_n_n 256 rfl rfl i
  have el : dot_S4096x256_S256x32_S4096x32_1_0_0_1_n_n.lhsIdx (ix2 p k) ((contrEquiv1 dot_S4096x256_S256x32_S4096x32_1_0_0_1_n_n 256 rfl rfl).symm i) = ix2 p i := funext fun a => Fin.ext (by
    match a with
    | ⟨0, _⟩ => exact lhs_b_0 _ _
    | ⟨1, _⟩ => exact (lhs_b_1 _ _).trans hk)
  have er : dot_S4096x256_S256x32_S4096x32_1_0_0_1_n_n.rhsIdx (ix2 p k) ((contrEquiv1 dot_S4096x256_S256x32_S4096x32_1_0_0_1_n_n 256 rfl rfl).symm i) = ix2 i k := funext fun a => Fin.ext (by
    match a with
    | ⟨0, _⟩ => exact (rhs_b_0 _ _).trans hk
    | ⟨1, _⟩ => exact rhs_b_1 _ _)
  rw [el, er]

/-! ## Layout steps of a block, read at coordinates -/

/-- A bias vector laid out as one row and repeated down the 4096 rows reads, at (p, k), its entry k. -/
theorem bias_row {b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![4096, b]⟩) (p : Fin 4096) (k : Fin b) :
    broadcastTo ⟨2, ![4096, b]⟩ (shapeCast ⟨2, ![1, b]⟩ v h1) h2 (ix2 p k) = v (ix1 k) :=
  (broadcastTo_1b_ab_apply _ h2 p k).trans (shapeCast_a_1a_apply v h1 0 k)

/-- The sum along a block's 32 columns, at row p. -/
theorem row_sum (v : FVec Ideal S4096x32 .f32) (hφ : FKind.Formats .f32) (hacc : (0x00000000#32 : BitVec 32) = FKind.add.neutral .f32 hφ)
    (p : Fin 4096) :
    multiReduction .add [1] S4096 v 0x00000000#32 reduces_S4096x32_S4096 hφ hacc (ix1 p) = ∑ j : Fin 32, v (ix2 p j) := by
  refine (Ideal.multiReduction_add_single v 0x00000000#32 reduces_S4096x32_S4096 hφ hacc (ix1 p)).trans ?_
  refine Finset.sum_congr rfl fun j _ => congrArg v (funext fun a => Fin.ext ?_)
  match a with
  | ⟨0, _⟩ => rfl
  | ⟨1, _⟩ => rfl

/-- A row total kept as a one-column block reads, at (p, u), the total of row p. -/
theorem keep_col (v : FVec Ideal S4096 .f32) (h : S4096.ShapeCasts S4096x1) (p : Fin 4096) (u : Fin 1) :
    shapeCast S4096x1 v h (ix2 p u) = v (ix1 p) :=
  Cert.LibLayout.shapeCast_a_a1_apply v h p u

theorem exp_at {s : Shape} (v : FVec Ideal s .f32) (i : s.Idx) : exp v i = Ideal.exp (v i) := rfl
theorem sqrt_at {s : Shape} (v : FVec Ideal s .f32) (i : s.Idx) : sqrt v i = Ideal.sqrt (v i) := rfl
theorem tanh_at {s : Shape} (v : FVec Ideal s .f32) (i : s.Idx) : tanh v i = Ideal.tanh (v i) := rfl
theorem log_at {s : Shape} (v : FVec Ideal s .f32) (i : s.Idx) : log v i = Ideal.log (v i) := rfl

/-! ## The body's values at a row and a column -/

section
variable (x0 : Vec Ideal S4096x128 .f32) (x1 : Vec Ideal S4096x32 .f32) (x2 : Vec Ideal S128x256 .f32) (x3 : Vec Ideal S256 .f32)
  (x4 : Vec Ideal S256x32 .f32) (x5 : Vec Ideal S32 .f32) (x6 : Vec Ideal S256x32 .f32) (x7 : Vec Ideal S32 .f32)

/-- The hidden block at (p, k) is row p's hidden unit k. -/
theorem pay3_at (p : Fin 4096) (k : Fin 256) :
    k0_pay3 (F := Ideal) x0 x2 x3 (ix2 p k) = hiddenUnit (paramsOf x2 x3 x4 x5 x6 x7) (rowOf x0 p) k := by
  unfold k0_pay3 hiddenUnit
  simp only [maximumf_apply, addf_apply, mm_obs, bias_row, broadcast_apply]
  rfl

/-- The clipped first head at (p, j) is row p's mean. -/
theorem pay4_at (p : Fin 4096) (j : Fin 32) :
    k0_pay4 (F := Ideal) x0 x2 x3 x4 x5 (ix2 p j) = meanAt (paramsOf x2 x3 x4 x5 x6 x7) (rowOf x0 p) j := by
  unfold k0_pay4 meanAt
  simp only [minimumf_apply, maximumf_apply, addf_apply, mm_head, bias_row, broadcast_apply, pay3_at x0 x2 x3 x4 x5 x6 x7]
  rfl

/-- The clipped second head at (p, j) is row p's log-variance. -/
theorem pay5_at (p : Fin 4096) (j : Fin 32) :
    k0_pay5 (F := Ideal) x0 x2 x3 x6 x7 (ix2 p j) = logvarAt (paramsOf x2 x3 x4 x5 x6 x7) (rowOf x0 p) j := by
  unfold k0_pay5 logvarAt
  simp only [minimumf_apply, maximumf_apply, addf_apply, mm_head, bias_row, broadcast_apply, pay3_at x0 x2 x3 x4 x5 x6 x7]
  rfl

/-- Its exponential is the variance. -/
theorem pay6_at (p : Fin 4096) (j : Fin 32) :
    k0_pay6 (F := Ideal) x0 x2 x3 x6 x7 (ix2 p j) = varAt (paramsOf x2 x3 x4 x5 x6 x7) (rowOf x0 p) j := by
  unfold k0_pay6 varAt
  simp only [exp_at, pay5_at x0 x2 x3 x4 x5 x6 x7]

/-- The sample at (p, j). -/
theorem pay7_at (p : Fin 4096) (j : Fin 32) :
    k0_pay7 (F := Ideal) x0 x1 x2 x3 x4 x5 x6 x7 (ix2 p j) = sampleAt (paramsOf x2 x3 x4 x5 x6 x7) (rowOf x0 p) (rowOf x1 p) j := by
  unfold k0_pay7 sampleAt
  simp only [addf_apply, mulf_apply, sqrt_at, pay4_at x0 x2 x3 x4 x5 x6 x7, pay6_at x0 x2 x3 x4 x5 x6 x7]
  rfl

/-- The action at (p, j). -/
theorem pay8_at (p : Fin 4096) (j : Fin 32) :
    k0_pay8 (F := Ideal) x0 x1 x2 x3 x4 x5 x6 x7 (ix2 p j) = actionAt (paramsOf x2 x3 x4 x5 x6 x7) (rowOf x0 p) (rowOf x1 p) j := by
  unfold k0_pay8 actionAt
  simp only [mulf_apply, tanh_at, broadcast_apply, pay7_at x0 x1 x2 x3 x4 x5 x6 x7]
  rfl

end

/-! ## The two log-densities of a block, over any mean, log-variance, variance, sample and action blocks -/

/-- The Gaussian log-density column at (p, u), from the blocks it is computed from. -/
theorem pay1_at (m lv v s : FVec Ideal S4096x32 .f32) (p : Fin 4096) (u : Fin 1) :
    k0_pay1 (F := Ideal) m lv v s (ix2 p u)
      = lit 0xBF000000#32 * (∑ j : Fin 32, (Ideal.div ((s (ix2 p j) - m (ix2 p j)) * (s (ix2 p j) - m (ix2 p j))) (v (ix2 p j)) + lv (ix2 p j)))
        - lit 0x41EB3F8E#32 := by
  unfold k0_pay1
  simp only [subf_apply, mulf_apply, broadcast_apply, keep_col]
  refine congrArg (fun z : EReal => lit 0xBF000000#32 * z - lit 0x41EB3F8E#32) ((row_sum _ _ _ p).trans ?_)
  rfl

/-- The squashed log-density column at (p, u). -/
theorem pay2_at (m lv v s a : FVec Ideal S4096x32 .f32) (p : Fin 4096) (u : Fin 1) :
    k0_pay2 (F := Ideal) m lv v s a (ix2 p u)
      = k0_pay1 (F := Ideal) m lv v s (ix2 p u)
        - ∑ j : Fin 32, Ideal.log (lit 0x3F800000#32 - a (ix2 p j) * a (ix2 p j) + lit 0x358637BD#32) := by
  unfold k0_pay2
  simp only [subf_apply, keep_col]
  refine congrArg (fun z : EReal => k0_pay1 (F := Ideal) m lv v s (ix2 p u) - z) ((row_sum _ _ _ p).trans ?_)
  rfl

/-! ## The two log-density columns of a block, from the loaded blocks -/

section
variable (x0 : Vec Ideal S4096x128 .f32) (x1 : Vec Ideal S4096x32 .f32) (x2 : Vec Ideal S128x256 .f32) (x3 : Vec Ideal S256 .f32)
  (x4 : Vec Ideal S256x32 .f32) (x5 : Vec Ideal S32 .f32) (x6 : Vec Ideal S256x32 .f32) (x7 : Vec Ideal S32 .f32)

/-- The Gaussian log-density column at (p, u) is row p's Gaussian log-density. -/
theorem gauss_col (p : Fin 4096) (u : Fin 1) :
    k0_pay1 (F := Ideal) (k0_pay4 x0 x2 x3 x4 x5) (k0_pay5 x0 x2 x3 x6 x7) (k0_pay6 x0 x2 x3 x6 x7) (k0_pay7 x0 x1 x2 x3 x4 x5 x6 x7) (ix2 p u)
      = gaussLogp (paramsOf x2 x3 x4 x5 x6 x7) (rowOf x0 p) (rowOf x1 p) := by
  rw [pay1_at]
  simp only [pay4_at x0 x2 x3 x4 x5 x6 x7, pay5_at x0 x2 x3 x4 x5 x6 x7, pay6_at x0 x2 x3 x4 x5 x6 x7, pay7_at x0 x1 x2 x3 x4 x5 x6 x7]
  rfl

/-- The squashed log-density column at (p, u) is row p's squashed log-density. -/
theorem squashed_col (p : Fin 4096) (u : Fin 1) :
    k0_pay2 (F := Ideal) (k0_pay4 x0 x2 x3 x4 x5) (k0_pay5 x0 x2 x3 x6 x7) (k0_pay6 x0 x2 x3 x6 x7) (k0_pay7 x0 x1 x2 x3 x4 x5 x6 x7)
        (k0_pay8 x0 x1 x2 x3 x4 x5 x6 x7) (ix2 p u)
      = squashedLogp (paramsOf x2 x3 x4 x5 x6 x7) (rowOf x0 p) (rowOf x1 p) := by
  rw [pay2_at, gauss_col]
  simp only [pay8_at x0 x1 x2 x3 x4 x5 x6 x7]
  rfl

end

end Cert.KernelRow

end
-- ==== Proof.KernelBlocks.lean ====
/-
  The region's four result arrays, from the blocks its 64 grid points write back. Point t loads rows 4096 t … 4096 t + 4095
  of the observations and of the noise and the six weight arrays whole, and writes its four result blocks to the same
  rows of the four result arrays. By the row reading of the body each written block is the policy's array restricted to
  those rows; the 64 blocks cover every row, so each result array ends holding the policy's array.
-/
import proofs.«164631_j83099027243561_1_alg».proof.Proof.Gen.KernelIdeal.Frame
import proofs.«164631_j83099027243561_1_alg».proof.Proof.KernelRow
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelBlocks

open Idealize.ShloMosaic.ValueIdx Cert.KernelIdeal Cert.KernelIdeal.Gen Cert.Policy Cert.KernelRow

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The argument arrays, each at its literal type. -/
abbrev obs (c : Dev nD) : Vec Ideal S262144x128 .f32 := m ((c : Thread nD τ).loc main_arg0)
abbrev noise (c : Dev nD) : Vec Ideal S262144x32 .f32 := m ((c : Thread nD τ).loc main_arg1)
/-- The parameters, read off the six weight arrays. -/
abbrev par (c : Dev nD) : Params :=
  paramsOf (m ((c : Thread nD τ).loc main_arg2) : Vec Ideal S128x256 .f32) (m ((c : Thread nD τ).loc main_arg3) : Vec Ideal S256 .f32)
    (m ((c : Thread nD τ).loc main_arg4) : Vec Ideal S256x32 .f32) (m ((c : Thread nD τ).loc main_arg5) : Vec Ideal S32 .f32)
    (m ((c : Thread nD τ).loc main_arg6) : Vec Ideal S256x32 .f32) (m ((c : Thread nD τ).loc main_arg7) : Vec Ideal S32 .f32)

/-- The blocks the body loads at point t, each at its literal type. -/
abbrev xblk (c : Dev nD) (t : Fin cfg0.N) : Vec Ideal S4096x128 .f32 := iblk m c 0 t
abbrev eblk (c : Dev nD) (t : Fin cfg0.N) : Vec Ideal S4096x32 .f32 := iblk m c 1 t
abbrev w1blk (c : Dev nD) (t : Fin cfg0.N) : Vec Ideal S128x256 .f32 := iblk m c 2 t
abbrev b1blk (c : Dev nD) (t : Fin cfg0.N) : Vec Ideal S256 .f32 := iblk m c 3 t
abbrev w2blk (c : Dev nD) (t : Fin cfg0.N) : Vec Ideal S256x32 .f32 := iblk m c 4 t
abbrev b2blk (c : Dev nD) (t : Fin cfg0.N) : Vec Ideal S32 .f32 := iblk m c 5 t
abbrev w3blk (c : Dev nD) (t : Fin cfg0.N) : Vec Ideal S256x32 .f32 := iblk m c 6 t
abbrev b3blk (c : Dev nD) (t : Fin cfg0.N) : Vec Ideal S32 .f32 := iblk m c 7 t

/-- The printed index maps over the grid: the row-blocked windows sit at block row t, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The global row of local row p of block t. -/
abbrev grow (t : Fin cfg0.N) (p : Fin 4096) : Fin 262144 :=
  ⟨4096 * t.val + p.val, by have := t.isLt; have hN : cfg0.N = 64 := N_0; have := p.isLt; omega⟩

/-- Row p of the observation block at point t is row 4096 t + p of the observations. -/
theorem row_obs (c : Dev nD) (t : Fin cfg0.N) (p : Fin 4096) : rowOf (xblk m c t) p = rowOf (obs m c) (grow t p) := by
  funext a
  obtain ⟨e0, e1, -⟩ := idx_facts t
  show (iblk m c 0 t : Vec Ideal S4096x128 .f32) (ix2 p a) = (m ((c : Thread nD τ).loc main_arg0) : Vec Ideal S262144x128 .f32) (ix2 (grow t p) a)
  unfold iblk
  rw [View.read_apply]
  show V m c main_arg0 _ = m (c.tc.loc main_arg0) _
  rw [V_main_arg0]
  congr 1
  funext b
  apply Fin.ext
  match b with
  | ⟨0, _⟩ => show win0_0.index t 0 * 4096 + 1 * p.val = 4096 * t.val + p.val; rw [e0]; omega
  | ⟨1, _⟩ => show win0_0.index t 1 * 128 + 1 * a.val = a.val; rw [e1]; omega

/-- Row p of the noise block at point t is row 4096 t + p of the noise. -/
theorem row_noise (c : Dev nD) (t : Fin cfg0.N) (p : Fin 4096) : rowOf (eblk m c t) p = rowOf (noise m c) (grow t p) := by
  funext a
  obtain ⟨-, -, e0, e1, -⟩ := idx_facts t
  show (iblk m c 1 t : Vec Ideal S4096x32 .f32) (ix2 p a) = (m ((c : Thread nD τ).loc main_arg1) : Vec Ideal S262144x32 .f32) (ix2 (grow t p) a)
  unfold iblk
  rw [View.read_apply]
  show V m c main_arg1 _ = m (c.tc.loc main_arg1) _
  rw [V_main_arg1]
  congr 1
  funext b
  apply Fin.ext
  match b with
  | ⟨0, _⟩ => show win0_1.index t 0 * 4096 + 1 * p.val = 4096 * t.val + p.val; rw [e0]; omega
  | ⟨1, _⟩ => show win0_1.index t 1 * 32 + 1 * a.val = a.val; rw [e1]; omega

/-! Each weight window's one block is its whole array. -/

theorem w1_eq (c : Dev nD) (t : Fin cfg0.N) : w1blk m c t = (m ((c : Thread nD τ).loc main_arg2) : Vec Ideal S128x256 .f32) := by
  funext y
  obtain ⟨-, -, -, -, e0, e1, -⟩ := idx_facts t
  show (iblk m c 2 t : Vec Ideal S128x256 .f32) y = _
  unfold iblk
  rw [View.read_apply]
  show V m c main_arg2 _ = m (c.tc.loc main_arg2) _
  rw [V_main_arg2]
  congr 1
  funext b
  apply Fin.ext
  match b with
  | ⟨0, _⟩ => show win0_2.index t 0 * 128 + 1 * (y 0).val = (y 0).val; rw [e0]; omega
  | ⟨1, _⟩ => show win0_2.index t 1 * 256 + 1 * (y 1).val = (y 1).val; rw [e1]; omega

theorem b1_eq (c : Dev nD) (t : Fin cfg0.N) : b1blk m c t = (m ((c : Thread nD τ).loc main_arg3) : Vec Ideal S256 .f32) := by
  funext y
  obtain ⟨-, -, -, -, -, -, e0, -⟩ := idx_facts t
  show (iblk m c 3 t : Vec Ideal S256 .f32) y = _
  unfold iblk
  rw [View.read_apply]
  show V m c main_arg3 _ = m (c.tc.loc main_arg3) _
  rw [V_main_arg3]
  congr 1
  funext b
  apply Fin.ext
  match b with
  | ⟨0, _⟩ => show win0_3.index t 0 * 256 + 1 * (y 0).val = (y 0).val; rw [e0]; omega

theorem w2_eq (c : Dev nD) (t : Fin cfg0.N) : w2blk m c t = (m ((c : Thread nD τ).loc main_arg4) : Vec Ideal S256x32 .f32) := by
  funext y
  obtain ⟨-, -, -, -, -, -, -, e0, e1, -⟩ := idx_facts t
  show (iblk m c 4 t : Vec Ideal S256x32 .f32) y = _
  unfold iblk
  rw [View.read_apply]
  show V m c main_arg4 _ = m (c.tc.loc main_arg4) _
  rw [V_main_arg4]
  congr 1
  funext b
  apply Fin.ext
  match b with
  | ⟨0, _⟩ => show win0_4.index t 0 * 256 + 1 * (y 0).val = (y 0).val; rw [e0]; omega
  | ⟨1, _⟩ => show win0_4.index t 1 * 32 + 1 * (y 1).val = (y 1).val; rw [e1]; omega

theorem b2_eq (c : Dev nD) (t : Fin cfg0.N) : b2blk m c t = (m ((c : Thread nD τ).loc main_arg5) : Vec Ideal S32 .f32) := by
  funext y
  obtain ⟨-, -, -, -, -, -, -, -, -, e0, -⟩ := idx_facts t
  show (iblk m c 5 t : Vec Ideal S32 .f32) y = _
  unfold iblk
  rw [View.read_apply]
  show V m c main_arg5 _ = m (c.tc.loc main_arg5) _
  rw [V_main_arg5]
  congr 1
  funext b
  apply Fin.ext
  match b with
  | ⟨0, _⟩ => show win0_5.index t 0 * 32 + 1 * (y 0).val = (y 0).val; rw [e0]; omega

theorem w3_eq (c : Dev nD) (t : Fin cfg0.N) : w3blk m c t = (m ((c : Thread nD τ).loc main_arg6) : Vec Ideal S256x32 .f32) := by
  funext y
  obtain ⟨-, -, -, -, -, -, -, -, -, -, e0, e1, -⟩ := idx_facts t
  show (iblk m c 6 t : Vec Ideal S256x32 .f32) y = _
  unfold iblk
  rw [View.read_apply]
  show V m c main_arg6 _ = m (c.tc.loc main_arg6) _
  rw [V_main_arg6]
  congr 1
  funext b
  apply Fin.ext
  match b with
  | ⟨0, _⟩ => show win0_6.index t 0 * 256 + 1 * (y 0).val = (y 0).val; rw [e0]; omega
  | ⟨1, _⟩ => show win0_6.index t 1 * 32 + 1 * (y 1).val = (y 1).val; rw [e1]; omega

theorem b3_eq (c : Dev nD) (t : Fin cfg0.N) : b3blk m c t = (m ((c : Thread nD τ).loc main_arg7) : Vec Ideal S32 .f32) := by
  funext y
  obtain ⟨-, -, -, -, -, -, -, -, -, -, -, -, e0, -⟩ := idx_facts t
  show (iblk m c 7 t : Vec Ideal S32 .f32) y = _
  unfold iblk
  rw [View.read_apply]
  show V m c main_arg7 _ = m (c.tc.loc main_arg7) _
  rw [V_main_arg7]
  congr 1
  funext b
  apply Fin.ext
  match b with
  | ⟨0, _⟩ => show win0_7.index t 0 * 32 + 1 * (y 0).val = (y 0).val; rw [e0]; omega

/-- So the parameters read off the weight blocks at any point are the parameters. -/
theorem par_blk (c : Dev nD) (t : Fin cfg0.N) :
    paramsOf (w1blk m c t) (b1blk m c t) (w2blk m c t) (b2blk m c t) (w3blk m c t) (b3blk m c t) = par m c := by
  rw [w1_eq m c t, b1_eq m c t, w2_eq m c t, b2_eq m c t, w3_eq m c t, b3_eq m c t]

/-! ## What each point writes back -/

/-- Where local (p, j) of point t's block sits in a 32-column result. -/
theorem emb8 (t : Fin cfg0.N) (p : Fin 4096) (j : Fin 32) :
    (((cfg0.win 8).blk t).view.emb (ix2 p j) : S262144x32.Idx) = ix2 (grow t p) j := by
  obtain ⟨-, -, -, -, -, -, -, -, -, -, -, -, -, e0, e1, -⟩ := idx_facts t
  funext b
  apply Fin.ext
  match b with
  | ⟨0, _⟩ => show win0_8.index t 0 * 4096 + 1 * p.val = 4096 * t.val + p.val; rw [e0]; omega
  | ⟨1, _⟩ => show win0_8.index t 1 * 32 + 1 * j.val = j.val; rw [e1]; omega

theorem flushed8 (c : Dev nD) (t : Fin cfg0.N) :
    (dats m 0 c).flushed 8 t = ((cfg0.win 8).blk t).view.read (Elt Ideal) (actionArr (par m c) (obs m c) (noise m c)) := by
  show (cfg0.win 8).cut (grid0.coords t) ((dats m 0 c).after 8 t) = _
  rw [after0_8]
  unfold out0_8
  rw [View.canon_unit_zero hz2]
  simp only [View.ld_unit_zero (S := S4096x128) hz2, View.ld_unit_zero (S := S4096x32) hz2, View.ld_unit_zero (S := S128x256) hz2,
    View.ld_unit_zero (S := S256) hz1, View.ld_unit_zero (S := S256x32) hz2, View.ld_unit_zero (S := S32) hz1]
  funext y
  obtain ⟨p, j, rfl⟩ : ∃ (p : Fin 4096) (j : Fin 32), y = ix2 p j := ⟨y 0, y 1, eq_ix2 y⟩
  show k0_pay8 (F := Ideal) (xblk m c t) (eblk m c t) (w1blk m c t) (b1blk m c t) (w2blk m c t) (b2blk m c t) (w3blk m c t) (b3blk m c t) (ix2 p j)
    = actionArr (par m c) (obs m c) (noise m c) (((cfg0.win 8).blk t).view.emb (ix2 p j))
  rw [emb8]
  refine (pay8_at _ _ _ _ _ _ _ _ p j).trans ?_
  rw [par_blk m c t, row_obs m c t p, row_noise m c t p]
  rfl

/-- The same place in the other 32-column result. -/
theorem emb9 (t : Fin cfg0.N) (p : Fin 4096) (j : Fin 32) :
    (((cfg0.win 9).blk t).view.emb (ix2 p j) : S262144x32.Idx) = ix2 (grow t p) j := by
  obtain ⟨-, -, -, -, -, -, -, -, -, -, -, -, -, -, -, e0, e1, -⟩ := idx_facts t
  funext b
  apply Fin.ext
  match b with
  | ⟨0, _⟩ => show win0_9.index t 0 * 4096 + 1 * p.val = 4096 * t.val + p.val; rw [e0]; omega
  | ⟨1, _⟩ => show win0_9.index t 1 * 32 + 1 * j.val = j.val; rw [e1]; omega

theorem flushed9 (c : Dev nD) (t : Fin cfg0.N) :
    (dats m 0 c).flushed 9 t = ((cfg0.win 9).blk t).view.read (Elt Ideal) (sampleArr (par m c) (obs m c) (noise m c)) := by
  show (cfg0.win 9).cut (grid0.coords t) ((dats m 0 c).after 9 t) = _
  rw [after0_9]
  unfold out0_9
  rw [View.canon_unit_zero hz2]
  simp only [View.ld_unit_zero (S := S4096x128) hz2, View.ld_unit_zero (S := S4096x32) hz2, View.ld_unit_zero (S := S128x256) hz2,
    View.ld_unit_zero (S := S256) hz1, View.ld_unit_zero (S := S256x32) hz2, View.ld_unit_zero (S := S32) hz1]
  funext y
  obtain ⟨p, j, rfl⟩ : ∃ (p : Fin 4096) (j : Fin 32), y = ix2 p j := ⟨y 0, y 1, eq_ix2 y⟩
  show k0_pay7 (F := Ideal) (xblk m c t) (eblk m c t) (w1blk m c t) (b1blk m c t) (w2blk m c t) (b2blk m c t) (w3blk m c t) (b3blk m c t) (ix2 p j)
    = sampleArr (par m c) (obs m c) (noise m c) (((cfg0.win 9).blk t).view.emb (ix2 p j))
  rw [emb9]
  refine (pay7_at _ _ _ _ _ _ _ _ p j).trans ?_
  rw [par_blk m c t, row_obs m c t p, row_noise m c t p]
  rfl

/-- Where local (p, u) of point t's block sits in a one-column result. -/
theorem emb10 (t : Fin cfg0.N) (p : Fin 4096) (u : Fin 1) :
    (((cfg0.win 10).blk t).view.emb (ix2 p u) : S262144x1.Idx) = ix2 (grow t p) u := by
  obtain ⟨-, -, -, -, -, -, -, -, -, -, -, -, -, -, -, -, -, e0, e1, -⟩ := idx_facts t
  funext b
  apply Fin.ext
  match b with
  | ⟨0, _⟩ => show win0_10.index t 0 * 4096 + 1 * p.val = 4096 * t.val + p.val; rw [e0]; omega
  | ⟨1, _⟩ => show win0_10.index t 1 * 1 + 1 * u.val = u.val; rw [e1]; omega

theorem flushed10 (c : Dev nD) (t : Fin cfg0.N) :
    (dats m 0 c).flushed 10 t = ((cfg0.win 10).blk t).view.read (Elt Ideal) (squashedLogpCol (par m c) (obs m c) (noise m c)) := by
  show (cfg0.win 10).cut (grid0.coords t) ((dats m 0 c).after 10 t) = _
  rw [after0_10]
  unfold out0_10
  rw [View.canon_unit_zero hz2]
  simp only [View.ld_unit_zero (S := S4096x128) hz2, View.ld_unit_zero (S := S4096x32) hz2, View.ld_unit_zero (S := S128x256) hz2,
    View.ld_unit_zero (S := S256) hz1, View.ld_unit_zero (S := S256x32) hz2, View.ld_unit_zero (S := S32) hz1]
  funext y
  obtain ⟨p, u, rfl⟩ : ∃ (p : Fin 4096) (u : Fin 1), y = ix2 p u := ⟨y 0, y 1, eq_ix2 y⟩
  show k0_pay2 (F := Ideal) (k0_pay4 (xblk m c t) (w1blk m c t) (b1blk m c t) (w2blk m c t) (b2blk m c t))
      (k0_pay5 (xblk m c t) (w1blk m c t) (b1blk m c t) (w3blk m c t) (b3blk m c t))
      (k0_pay6 (xblk m c t) (w1blk m c t) (b1blk m c t) (w3blk m c t) (b3blk m c t))
      (k0_pay7 (xblk m c t) (eblk m c t) (w1blk m c t) (b1blk m c t) (w2blk m c t) (b2blk m c t) (w3blk m c t) (b3blk m c t))
      (k0_pay8 (xblk m c t) (eblk m c t) (w1blk m c t) (b1blk m c t) (w2blk m c t) (b2blk m c t) (w3blk m c t) (b3blk m c t)) (ix2 p u)
    = squashedLogpCol (par m c) (obs m c) (noise m c) (((cfg0.win 10).blk t).view.emb (ix2 p u))
  rw [emb10]
  refine (squashed_col _ _ _ _ _ _ _ _ p u).trans ?_
  rw [par_blk m c t, row_obs m c t p, row_noise m c t p]
  rfl

theorem emb11 (t : Fin cfg0.N) (p : Fin 4096) (u : Fin 1) :
    (((cfg0.win 11).blk t).view.emb (ix2 p u) : S262144x1.Idx) = ix2 (grow t p) u := by
  obtain ⟨-, -, -, -, -, -, -, -, -, -, -, -, -, -, -, -, -, -, -, e0, e1⟩ := idx_facts t
  funext b
  apply Fin.ext
  match b with
  | ⟨0, _⟩ => show win0_11.index t 0 * 4096 + 1 * p.val = 4096 * t.val + p.val; rw [e0]; omega
  | ⟨1, _⟩ => show win0_11.index t 1 * 1 + 1 * u.val = u.val; rw [e1]; omega

theorem flushed11 (c : Dev nD) (t : Fin cfg0.N) :
    (dats m 0 c).flushed 11 t = ((cfg0.win 11).blk t).view.read (Elt Ideal) (gaussLogpCol (par m c) (obs m c) (noise m c)) := by
  show (cfg0.win 11).cut (grid0.coords t) ((dats m 0 c).after 11 t) = _
  rw [after0_11]
  unfold out0_11
  rw [View.canon_unit_zero hz2]
  simp only [View.ld_unit_zero (S := S4096x128) hz2, View.ld_unit_zero (S := S4096x32) hz2, View.ld_unit_zero (S := S128x256) hz2,
    View.ld_unit_zero (S := S256) hz1, View.ld_unit_zero (S := S256x32) hz2, View.ld_unit_zero (S := S32) hz1]
  funext y
  obtain ⟨p, u, rfl⟩ : ∃ (p : Fin 4096) (u : Fin 1), y = ix2 p u := ⟨y 0, y 1, eq_ix2 y⟩
  show k0_pay1 (F := Ideal) (k0_pay4 (xblk m c t) (w1blk m c t) (b1blk m c t) (w2blk m c t) (b2blk m c t))
      (k0_pay5 (xblk m c t) (w1blk m c t) (b1blk m c t) (w3blk m c t) (b3blk m c t))
      (k0_pay6 (xblk m c t) (w1blk m c t) (b1blk m c t) (w3blk m c t) (b3blk m c t))
      (k0_pay7 (xblk m c t) (eblk m c t) (w1blk m c t) (b1blk m c t) (w2blk m c t) (b2blk m c t) (w3blk m c t) (b3blk m c t)) (ix2 p u)
    = gaussLogpCol (par m c) (obs m c) (noise m c) (((cfg0.win 11).blk t).view.emb (ix2 p u))
  rw [emb11]
  refine (gauss_col _ _ _ _ _ _ _ _ p u).trans ?_
  rw [par_blk m c t, row_obs m c t p, row_noise m c t p]
  rfl

/-! ## The blocks cover each result array -/

/-- Row i lies in the block of point i / 4096. -/
theorem cover8 (i : S262144x32.Idx) : ∃ t : Fin cfg0.N, (cfg0.win 8).flush t = true ∧ i ∈ ((cfg0.win 8).blk t).view.set := by
  have hi0 : (i 0).val < 262144 := (i 0).isLt
  have hi1 : (i 1).val < 32 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, -, -, -, -, -, -, -, e0, e1, -⟩ := idx_facts t
  refine ⟨t, flush0_8 t, ?_⟩
  show i ∈ ((View.whole main_v0_0).slice (win0_8.rect t)).set
  rw [View.set_slice_whole, Rect.mem_set_unit]
  intro a
  match a with
  | ⟨0, _⟩ => show win0_8.index t 0 * 4096 ≤ (i 0).val ∧ (i 0).val < win0_8.index t 0 * 4096 + 4096; rw [e0, ht]; omega
  | ⟨1, _⟩ => show win0_8.index t 1 * 32 ≤ (i 1).val ∧ (i 1).val < win0_8.index t 1 * 32 + 32; rw [e1]; omega

theorem cover9 (i : S262144x32.Idx) : ∃ t : Fin cfg0.N, (cfg0.win 9).flush t = true ∧ i ∈ ((cfg0.win 9).blk t).view.set := by
  have hi0 : (i 0).val < 262144 := (i 0).isLt
  have hi1 : (i 1).val < 32 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, -, -, -, -, -, -, -, -, -, e0, e1, -⟩ := idx_facts t
  refine ⟨t, flush0_9 t, ?_⟩
  show i ∈ ((View.whole main_v0_1).slice (win0_9.rect t)).set
  rw [View.set_slice_whole, Rect.mem_set_unit]
  intro a
  match a with
  | ⟨0, _⟩ => show win0_9.index t 0 * 4096 ≤ (i 0).val ∧ (i 0).val < win0_9.index t 0 * 4096 + 4096; rw [e0, ht]; omega
  | ⟨1, _⟩ => show win0_9.index t 1 * 32 ≤ (i 1).val ∧ (i 1).val < win0_9.index t 1 * 32 + 32; rw [e1]; omega

theorem cover10 (i : S262144x1.Idx) : ∃ t : Fin cfg0.N, (cfg0.win 10).flush t = true ∧ i ∈ ((cfg0.win 10).blk t).view.set := by
  have hi0 : (i 0).val < 262144 := (i 0).isLt
  have hi1 : (i 1).val < 1 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, -, -, -, -, -, -, -, -, -, -, -, e0, e1, -⟩ := idx_facts t
  refine ⟨t, flush0_10 t, ?_⟩
  show i ∈ ((View.whole main_v0_2).slice (win0_10.rect t)).set
  rw [View.set_slice_whole, Rect.mem_set_unit]
  intro a
  match a with
  | ⟨0, _⟩ => show win0_10.index t 0 * 4096 ≤ (i 0).val ∧ (i 0).val < win0_10.index t 0 * 4096 + 4096; rw [e0, ht]; omega
  | ⟨1, _⟩ => show win0_10.index t 1 * 1 ≤ (i 1).val ∧ (i 1).val < win0_10.index t 1 * 1 + 1; rw [e1]; omega

theorem cover11 (i : S262144x1.Idx) : ∃ t : Fin cfg0.N, (cfg0.win 11).flush t = true ∧ i ∈ ((cfg0.win 11).blk t).view.set := by
  have hi0 : (i 0).val < 262144 := (i 0).isLt
  have hi1 : (i 1).val < 1 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, -, -, -, -, -, -, -, -, -, -, -, -, -, e0, e1⟩ := idx_facts t
  refine ⟨t, flush0_11 t, ?_⟩
  show i ∈ ((View.whole main_v0_3).slice (win0_11.rect t)).set
  rw [View.set_slice_whole, Rect.mem_set_unit]
  intro a
  match a with
  | ⟨0, _⟩ => show win0_11.index t 0 * 4096 ≤ (i 0).val ∧ (i 0).val < win0_11.index t 0 * 4096 + 4096; rw [e0, ht]; omega
  | ⟨1, _⟩ => show win0_11.index t 1 * 1 ≤ (i 1).val ∧ (i 1).val < win0_11.index t 1 * 1 + 1; rw [e1]; omega

/-! ## The four arrays the region leaves -/

theorem final8 (c : Dev nD) : (dats m 0 c).arrAt 8 cfg0.N = actionArr (par m c) (obs m c) (noise m c) :=
  (dats m 0 c).arrAt_eq_of_cover 8 _ (fun t _ => flushed8 m c t) cover8

theorem final9 (c : Dev nD) : (dats m 0 c).arrAt 9 cfg0.N = sampleArr (par m c) (obs m c) (noise m c) :=
  (dats m 0 c).arrAt_eq_of_cover 9 _ (fun t _ => flushed9 m c t) cover9

theorem final10 (c : Dev nD) : (dats m 0 c).arrAt 10 cfg0.N = squashedLogpCol (par m c) (obs m c) (noise m c) :=
  (dats m 0 c).arrAt_eq_of_cover 10 _ (fun t _ => flushed10 m c t) cover10

theorem final11 (c : Dev nD) : (dats m 0 c).arrAt 11 cfg0.N = gaussLogpCol (par m c) (obs m c) (noise m c) :=
  (dats m 0 c).arrAt_eq_of_cover 11 _ (fun t _ => flushed11 m c t) cover11

end Cert.KernelBlocks

end
-- ==== Proof.LibColumn.lean ====
/-
  A general reading lemma for dropping a trailing unit axis: a one-column matrix cast to a vector, over any extent.
-/
import Idealize.ShloMosaic.Lib.ValueLayout

noncomputable section

namespace Cert.LibColumn

open Idealize.ShloMosaic Idealize.ShloMosaic.ValueIdx

variable {α : Type}

/-- An `[a, 1]` array cast to `[a]` reads, at `p`, the operand's one entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

end Cert.LibColumn

end
-- ==== Proof.KernelRun.lean ====
/-
  The idealized kernel's whole run, read: the region leaves the action and sample arrays and the two log-density columns
  (the blocks module); the two host lines after the region drop the columns' unit axis; the arguments end as they began.
-/
import proofs.«164631_j83099027243561_1_alg».proof.Proof.Gen.KernelIdeal.Frame
import proofs.«164631_j83099027243561_1_alg».proof.Proof.KernelBlocks
import proofs.«164631_j83099027243561_1_alg».proof.Proof.LibColumn
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelRun

open Idealize.ShloMosaic.ValueIdx Cert.KernelIdeal Cert.KernelIdeal.Gen Cert.Policy Cert.KernelBlocks

variable (m : (ℓ : Loc nD τ sig) → Buf (Elt Ideal) ℓ) (ρ : Dev nD → PrngReg)

/-- The two vector results are buffers the region does not touch. -/
theorem v1_rest : main_v1 ∈ Pipeline.restRefs sig spec0 := Pipeline.mem_restRefs_of main_v1 rfl (by decide)
theorem v2_rest : main_v2 ∈ Pipeline.restRefs sig spec0 := Pipeline.mem_restRefs_of main_v2 rfl (by decide)

/-- After the region, the first host line drops the unit axis of the squashed log-density column. -/
theorem tail1 (c : Dev nD) :
    Pipeline.afterTail₀ cfgs (dats m) 0 (V0 m) [hostOps1] c main_v1 = squashedLogpArr (par m c) (obs m c) (noise m c) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.tc.devRef main_v0_2)
      = squashedLogpCol (par m c) (obs m c) (noise m c) :=
    (Pipeline.withArrays_arr spec0 launch0.win.arr_inj c _ _ 10).trans (final10 m c)
  funext i
  obtain ⟨r, rfl⟩ : ∃ r : Fin 262144, i = ix1 r := ⟨i 0, eq_ix1 i⟩
  show shapeCast S262144 (Pipeline.withArrays (cfgs 0).spec c (V0 m c) (fun w => (dats m 0 c).arrAt w (cfgs 0).N) (Proc.tc.devRef main_v0_2))
      shapeCasts_S262144x1_S262144 (ix1 r) = _
  rw [hA, Cert.LibColumn.shapeCast_a1_a_apply]
  rfl

/-- The second host line does the same to the Gaussian log-density column. -/
theorem tail2 (c : Dev nD) :
    Pipeline.afterTail₀ cfgs (dats m) 0 (V0 m) [hostOps1] c main_v2 = gaussLogpArr (par m c) (obs m c) (noise m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.tc.devRef main_v0_3)
      = gaussLogpCol (par m c) (obs m c) (noise m c) :=
    (Pipeline.withArrays_arr spec0 launch0.win.arr_inj c _ _ 11).trans (final11 m c)
  funext i
  obtain ⟨r, rfl⟩ : ∃ r : Fin 262144, i = ix1 r := ⟨i 0, eq_ix1 i⟩
  show shapeCast S262144 (Pipeline.withArrays (cfgs 0).spec c (V0 m c) (fun w => (dats m 0 c).arrAt w (cfgs 0).N) (Proc.tc.devRef main_v0_3))
      shapeCasts_S262144x1_S262144 (ix1 r) = _
  rw [hA, Cert.LibColumn.shapeCast_a1_a_apply]
  rfl

/-- The idealized kernel's run, read: the four results at the policy's arrays of the arguments, the arguments unchanged. -/
theorem run : θ_run defs (onTc (τ := τ) (main (F := Ideal))) ⟨m, fun _ => 0, ρ⟩ fun r => ∀ c : Dev nD,
      r.2.mem ((c.tc : Thread nD τ).loc main_v0_0) = actionArr (par m c) (obs m c) (noise m c)
      ∧ r.2.mem ((c.tc : Thread nD τ).loc main_v0_1) = sampleArr (par m c) (obs m c) (noise m c)
      ∧ r.2.mem ((c.tc : Thread nD τ).loc main_v1) = squashedLogpArr (par m c) (obs m c) (noise m c)
      ∧ r.2.mem ((c.tc : Thread nD τ).loc main_v2) = gaussLogpArr (par m c) (obs m c) (noise m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c),
      ((h c).1 9).trans (final9 m c),
      ((h c).2 main_v1 v1_rest).trans (tail1 m c),
      ((h c).2 main_v2 v2_rest).trans (tail2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelRun

end
-- ==== Proof.RefRow.lean ====
/-
  The reference program read at a row: each of its stages, at row r (and column j), is the policy's quantity of that
  row of the observation and noise matrices. The stages are read one operation at a time; the only work is that the
  operand indices the layout operations and the two kinds of sums compute are the plain coordinates (r, i), (i, k),
  (k, j), and that the host's sum starts from the zero word.
-/
import proofs.«164631_j83099027243561_1_alg».proof.Proof.Gen.ReferenceIdeal.Read
import proofs.«164631_j83099027243561_1_alg».proof.Proof.Policy
import Idealize.ShloMosaic.Lib.ValueIdx
import Idealize.ShloMosaic.PureOps.Ideal.Laws

noncomputable section

namespace Cert.RefRow

open Idealize.ShloMosaic Idealize.ShloMosaic.ValueIdx Cert.ReferenceIdeal Cert.ReferenceIdeal.Read Cert.Policy

section
variable (X : (⟨S262144x128, .f32⟩ : BufTy).Contents (Elt Ideal)) (E : (⟨S262144x32, .f32⟩ : BufTy).Contents (Elt Ideal))
  (W1 : (⟨S128x256, .f32⟩ : BufTy).Contents (Elt Ideal)) (b1 : (⟨S256, .f32⟩ : BufTy).Contents (Elt Ideal))
  (W2 : (⟨S256x32, .f32⟩ : BufTy).Contents (Elt Ideal)) (b2 : (⟨S32, .f32⟩ : BufTy).Contents (Elt Ideal))
  (W3 : (⟨S256x32, .f32⟩ : BufTy).Contents (Elt Ideal)) (b3 : (⟨S32, .f32⟩ : BufTy).Contents (Elt Ideal))

/-- The hidden layer at (r, k). -/
theorem hidden_at (r : Fin 262144) (k : Fin 256) :
    val_main_v4 (F := Ideal) X W1 b1 (ix2 r k) = hiddenUnit (paramsOf W1 b1 W2 b2 W3 b3) (rowOf X r) k := by
  rw [val_main_v4_apply, val_main_v3_apply, val_main_v0_apply, val_main_v2_apply, val_main_v1_apply,
    val_main_call0_v0_apply, val_main_call0_cst_apply]
  have hl : ∀ i, lidx_main_v0 (ix2 r k) i = ix2 r i := fun i => funext fun a => Fin.ext (by
    match a with | ⟨0, _⟩ => rfl | ⟨1, _⟩ => rfl)
  have hr : ∀ i, ridx_main_v0 (ix2 r k) i = ix2 i k := fun i => funext fun a => Fin.ext (by
    match a with | ⟨0, _⟩ => rfl | ⟨1, _⟩ => rfl)
  have hb : idx_main_v1 (idx_main_v2 (ix2 r k)) = ix1 k := funext fun a => Fin.ext (by
    match a with | ⟨0, _⟩ => rfl)
  simp only [hl, hr, hb]
  rfl

/-- The clipped mean at (r, j). -/
theorem mean_at (r : Fin 262144) (j : Fin 32) :
    val_main_v9 (F := Ideal) X W1 b1 W2 b2 (ix2 r j) = meanAt (paramsOf W1 b1 W2 b2 W3 b3) (rowOf X r) j := by
  rw [val_main_v9_apply, val_main_call1_v4_apply, val_main_call1_v3_apply, val_main_cst_0_apply, val_main_call1_v2_apply,
    val_main_call1_v1_apply, val_main_call1_v0_apply, val_main_cst_apply, val_main_v8_apply, val_main_v5_apply,
    val_main_v7_apply, val_main_v6_apply]
  have hl : ∀ k, lidx_main_v5 (ix2 r j) k = ix2 r k := fun k => funext fun a => Fin.ext (by
    match a with | ⟨0, _⟩ => rfl | ⟨1, _⟩ => rfl)
  have hr : ∀ k, ridx_main_v5 (ix2 r j) k = ix2 k j := fun k => funext fun a => Fin.ext (by
    match a with | ⟨0, _⟩ => rfl | ⟨1, _⟩ => rfl)
  have hb : idx_main_v6 (idx_main_v7 (ix2 r j)) = ix1 j := funext fun a => Fin.ext (by
    match a with | ⟨0, _⟩ => rfl)
  simp only [hl, hr, hb, hidden_at X W1 b1 W2 b2 W3 b3]
  rfl

/-- The clipped log-variance at (r, j). -/
theorem logvar_at (r : Fin 262144) (j : Fin 32) :
    val_main_v14 (F := Ideal) X W1 b1 W3 b3 (ix2 r j) = logvarAt (paramsOf W1 b1 W2 b2 W3 b3) (rowOf X r) j := by
  rw [val_main_v14_apply, val_main_call2_v4_apply, val_main_call2_v3_apply, val_main_cst_2_apply, val_main_call2_v2_apply,
    val_main_call2_v1_apply, val_main_call2_v0_apply, val_main_cst_1_apply, val_main_v13_apply, val_main_v10_apply,
    val_main_v12_apply, val_main_v11_apply]
  have hl : ∀ k, lidx_main_v10 (ix2 r j) k = ix2 r k := fun k => funext fun a => Fin.ext (by
    match a with | ⟨0, _⟩ => rfl | ⟨1, _⟩ => rfl)
  have hr : ∀ k, ridx_main_v10 (ix2 r j) k = ix2 k j := fun k => funext fun a => Fin.ext (by
    match a with | ⟨0, _⟩ => rfl | ⟨1, _⟩ => rfl)
  have hb : idx_main_v11 (idx_main_v12 (ix2 r j)) = ix1 j := funext fun a => Fin.ext (by
    match a with | ⟨0, _⟩ => rfl)
  simp only [hl, hr, hb, hidden_at X W1 b1 W2 b2 W3 b3]
  rfl

/-- The variance at (r, j). -/
theorem var_at (r : Fin 262144) (j : Fin 32) :
    val_main_v15 (F := Ideal) X W1 b1 W3 b3 (ix2 r j) = varAt (paramsOf W1 b1 W2 b2 W3 b3) (rowOf X r) j := by
  rw [val_main_v15_apply, logvar_at X W1 b1 W2 b2 W3 b3]
  rfl

/-- The sample at (r, j). -/
theorem sample_at (r : Fin 262144) (j : Fin 32) :
    val_main_v18 (F := Ideal) X E W1 b1 W2 b2 W3 b3 (ix2 r j)
      = sampleAt (paramsOf W1 b1 W2 b2 W3 b3) (rowOf X r) (rowOf E r) j := by
  rw [val_main_v18_apply, val_main_v17_apply, val_main_v16_apply, mean_at X W1 b1 W2 b2 W3 b3, var_at X W1 b1 W2 b2 W3 b3]
  rfl

/-- The action at (r, j). -/
theorem action_at (r : Fin 262144) (j : Fin 32) :
    val_main_v21 (F := Ideal) X E W1 b1 W2 b2 W3 b3 (ix2 r j)
      = actionAt (paramsOf W1 b1 W2 b2 W3 b3) (rowOf X r) (rowOf E r) j := by
  rw [val_main_v21_apply, val_main_v20_apply, val_main_cst_3_apply, val_main_v19_apply, sample_at X E W1 b1 W2 b2 W3 b3]
  rfl

/-- The Gaussian log-density of row r. -/
theorem gauss_at (r : Fin 262144) :
    val_main_v30 (F := Ideal) X E W1 b1 W2 b2 W3 b3 (ix1 r)
      = gaussLogp (paramsOf W1 b1 W2 b2 W3 b3) (rowOf X r) (rowOf E r) := by
  rw [val_main_v30_apply, val_main_v29_apply, val_main_cst_6_apply, val_main_v28_apply, val_main_v27_apply, val_main_cst_5_apply,
    val_main_v26_apply, val_main_cst_4_apply]
  have hi : ∀ j, idx_main_v26 (ix1 r) j = ix2 r j := fun j => funext fun a => Fin.ext (by
    match a with | ⟨0, _⟩ => rfl | ⟨1, _⟩ => rfl)
  simp only [hi, val_main_v25_apply, val_main_v24_apply, val_main_v23_apply, val_main_v22_apply,
    sample_at X E W1 b1 W2 b2 W3 b3, mean_at X W1 b1 W2 b2 W3 b3, var_at X W1 b1 W2 b2 W3 b3, logvar_at X W1 b1 W2 b2 W3 b3]
  unfold gaussLogp
  simp only [Ideal.ofBits_def, Ideal.ofBits_zero_f32, zero_add]
  rfl

/-- The squashed log-density of row r. -/
theorem squashed_at (r : Fin 262144) :
    val_main_v38 (F := Ideal) X E W1 b1 W2 b2 W3 b3 (ix1 r)
      = squashedLogp (paramsOf W1 b1 W2 b2 W3 b3) (rowOf X r) (rowOf E r) := by
  rw [val_main_v38_apply, gauss_at X E W1 b1 W2 b2 W3 b3, val_main_v37_apply, val_main_cst_9_apply]
  have hi : ∀ j, idx_main_v37 (ix1 r) j = ix2 r j := fun j => funext fun a => Fin.ext (by
    match a with | ⟨0, _⟩ => rfl | ⟨1, _⟩ => rfl)
  simp only [hi, val_main_v36_apply, val_main_v35_apply, val_main_v34_apply, val_main_cst_8_apply, val_main_v33_apply,
    val_main_v32_apply, val_main_cst_7_apply, val_main_v31_apply, action_at X E W1 b1 W2 b2 W3 b3]
  unfold squashedLogp
  simp only [Ideal.ofBits_def, Ideal.ofBits_zero_f32, zero_add]
  rfl

end

/-! ## The four results as whole arrays -/

section
variable (X : (⟨S262144x128, .f32⟩ : BufTy).Contents (Elt Ideal)) (E : (⟨S262144x32, .f32⟩ : BufTy).Contents (Elt Ideal))
  (W1 : (⟨S128x256, .f32⟩ : BufTy).Contents (Elt Ideal)) (b1 : (⟨S256, .f32⟩ : BufTy).Contents (Elt Ideal))
  (W2 : (⟨S256x32, .f32⟩ : BufTy).Contents (Elt Ideal)) (b2 : (⟨S32, .f32⟩ : BufTy).Contents (Elt Ideal))
  (W3 : (⟨S256x32, .f32⟩ : BufTy).Contents (Elt Ideal)) (b3 : (⟨S32, .f32⟩ : BufTy).Contents (Elt Ideal))

theorem action_eq : val_main_v21 (F := Ideal) X E W1 b1 W2 b2 W3 b3 = actionArr (paramsOf W1 b1 W2 b2 W3 b3) X E := by
  funext i
  obtain ⟨r, j, rfl⟩ : ∃ (r : Fin 262144) (j : Fin 32), i = ix2 r j := ⟨i 0, i 1, eq_ix2 i⟩
  exact action_at X E W1 b1 W2 b2 W3 b3 r j

theorem sample_eq : val_main_v18 (F := Ideal) X E W1 b1 W2 b2 W3 b3 = sampleArr (paramsOf W1 b1 W2 b2 W3 b3) X E := by
  funext i
  obtain ⟨r, j, rfl⟩ : ∃ (r : Fin 262144) (j : Fin 32), i = ix2 r j := ⟨i 0, i 1, eq_ix2 i⟩
  exact sample_at X E W1 b1 W2 b2 W3 b3 r j

theorem squashed_eq : val_main_v38 (F := Ideal) X E W1 b1 W2 b2 W3 b3 = squashedLogpArr (paramsOf W1 b1 W2 b2 W3 b3) X E := by
  funext i
  obtain ⟨r, rfl⟩ : ∃ (r : Fin 262144), i = ix1 r := ⟨i 0, eq_ix1 i⟩
  exact squashed_at X E W1 b1 W2 b2 W3 b3 r

theorem gauss_eq : val_main_v30 (F := Ideal) X E W1 b1 W2 b2 W3 b3 = gaussLogpArr (paramsOf W1 b1 W2 b2 W3 b3) X E := by
  funext i
  obtain ⟨r, rfl⟩ : ∃ (r : Fin 262144), i = ix1 r := ⟨i 0, eq_ix1 i⟩
  exact gauss_at X E W1 b1 W2 b2 W3 b3 r

end

end Cert.RefRow

end
-- ==== Proof.lean ====
/-
  The kernel computes, for each of 262144 observation rows, a tanh-squashed diagonal-Gaussian policy: the action, the
  pre-squash sample, the squashed log-density and the Gaussian log-density. It does so 4096 rows at a time on a grid of
  64 points; the reference does the same arithmetic on the whole arrays at once. Over the extended reals the two agree
  operation by operation: each matrix product is the sum over the shared coordinate on both sides, each row total the sum
  over the 32 columns (the host's starts from the zero word), every transcendental is the same function on both sides,
  and every literal is the same binary32 word. So no algebraic law and no finiteness is needed: both programs' results
  are the four arrays of Proof/Policy.lean, row by row.
    Proof/Policy.lean        one row of the policy, and the four result arrays
    Proof/KernelRow.lean     the kernel's body at a row of its block
    Proof/KernelBlocks.lean  the region's result arrays from the 64 written blocks
    Proof/KernelRun.lean     the idealized kernel's run, with the two reshapes after the region
    Proof/RefRow.lean        the reference's stages at a row
  The frames of the two kernels are the generated ones; the reference's frame is its generated run with the results
  dropped; the idealization rewrote nothing, so `preserves` is `True`.
-/
import proofs.«164631_j83099027243561_1_alg».proof.Defs
import proofs.«164631_j83099027243561_1_alg».proof.Proof.Gen.Kernel
import proofs.«164631_j83099027243561_1_alg».proof.Proof.Gen.Kernel.Skeleton
import proofs.«164631_j83099027243561_1_alg».proof.Proof.Gen.Kernel.Launch
import proofs.«164631_j83099027243561_1_alg».proof.Proof.Gen.Kernel.Points
import proofs.«164631_j83099027243561_1_alg».proof.Proof.Gen.Kernel.Frame
import proofs.«164631_j83099027243561_1_alg».proof.Proof.Gen.KernelIdeal
import proofs.«164631_j83099027243561_1_alg».proof.Proof.Gen.KernelIdeal.Skeleton
import proofs.«164631_j83099027243561_1_alg».proof.Proof.Gen.KernelIdeal.Launch
import proofs.«164631_j83099027243561_1_alg».proof.Proof.Gen.KernelIdeal.Points
import proofs.«164631_j83099027243561_1_alg».proof.Proof.Gen.KernelIdeal.Frame
import proofs.«164631_j83099027243561_1_alg».proof.Proof.Gen.ReferenceIdeal
import proofs.«164631_j83099027243561_1_alg».proof.Proof.Gen.ReferenceIdeal.Run
import proofs.«164631_j83099027243561_1_alg».proof.Proof.Gen.ReferenceIdeal.Read
import proofs.«164631_j83099027243561_1_alg».proof.Proof.Gen.Pre_finite_inputs
import proofs.«164631_j83099027243561_1_alg».proof.Proof.KernelRun
import proofs.«164631_j83099027243561_1_alg».proof.Proof.RefRow
import Idealize.ShloMosaic.Adequacy
import Idealize.ShloMosaic.Init

noncomputable section

namespace Cert.Proof

open Idealize.ShloMosaic Idealize.SL.Sem Cert.Policy

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

/-- Both runs end with the policy's four arrays of arguments that agree. -/
theorem algebraic : Cert.algebraic_KernelIdeal_ReferenceIdeal := by
  intro m ρ m' ρ' _ hagree
  refine ⟨_, _, _, _, Cert.KernelRun.run m ρ, ?_⟩
  refine (θ_run Cert.ReferenceIdeal.defs _ _).mono (fun _ h c => ?_) (Cert.ReferenceIdeal.Value.run (F := Ideal) m' ρ')
  obtain ⟨h21, h18, h38, h30, hargs⟩ := h c
  obtain ⟨a0, a1, a2, a3, a4, a5, a6, a7⟩ := hagree c
  refine ⟨h21.trans ?_, h18.trans ?_, h38.trans ?_, h30.trans ?_, hargs⟩
  · rw [Cert.ReferenceIdeal.Read.val_main_v21_eq, Cert.RefRow.action_eq, a0, a1, a2, a3, a4, a5, a6, a7]
  · rw [Cert.ReferenceIdeal.Read.val_main_v18_eq, Cert.RefRow.sample_eq, a0, a1, a2, a3, a4, a5, a6, a7]
  · rw [Cert.ReferenceIdeal.Read.val_main_v38_eq, Cert.RefRow.squashed_eq, a0, a1, a2, a3, a4, a5, a6, a7]
  · rw [Cert.ReferenceIdeal.Read.val_main_v30_eq, Cert.RefRow.gauss_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
